-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S65536x512 .f32) (main_arg1 : FVec F S1024x512 .f32) (main_arg2 : FVec F S1x1024 .f32) (main_arg3 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩
abbrev S1024 : Shape := ⟨1, ![1024]⟩
abbrev S1024x1 : Shape := ⟨2, ![1024, 1]⟩
abbrev S65536x1 : Shape := ⟨2, ![65536, 1]⟩
abbrev S512x1024 : Shape := ⟨2, ![512, 1024]⟩
abbrev S1024x1024 : Shape := ⟨2, ![1024, 1024]⟩
abbrev S1x1 : Shape := ⟨2, ![1, 1]⟩

abbrev nBuf : Space → Nat
  | .hbm => 10
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S1x1024, .f32⟩
  | .hbm, ⟨3, _⟩ => ⟨S1, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1x1024, .f32⟩
  | .hbm, ⟨9, _⟩ => ⟨S65536x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1x1024, .f32⟩
  | .local _ .vmem, ⟨4, _⟩ => ⟨S1x1024, .f32⟩
  | .local _ .vmem, ⟨5, _⟩ => ⟨S1, .f32⟩
  | .local _ .vmem, ⟨6, _⟩ => ⟨S1024x1, .f32⟩
  | .local _ .vmem, ⟨7, _⟩ => ⟨S1024x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  transposes_S1024x1_S1x1024_1_0 : S1024x1.Transposes [1, 0] S1x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  transposes_S1x1024_p1_0_S1024x1 : S1x1024.Transposes [1, 0] S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x512_S512x1024_S1024x1024_1_0_0_1_n_n_wf : DotDims.WF S1024x512 S512x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S65536x1.size a
  hwx0_5 : ∀ i : grid0.Coords, EltTy.bits .f32 = 32 ∨ (Rect.block (s := S65536x1) S1024x1.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x512 : Shape := ⟨2, ![65536, 512]⟩
abbrev S1024x512 : Shape := ⟨2, ![1024, 512]⟩
abbrev S1x1024 : Shape := ⟨2, ![1, 1024]⟩
abbrev S1 : Shape := ⟨1, ![1]⟩
abbrev S_ : Shape := ⟨0, ![]⟩
abbrev S65536 : Shape := ⟨1, ![65536]⟩
abbrev S1024 : Shape := ⟨1, ![1024]⟩
abbrev S65536x1024 : Shape := ⟨2, ![65536, 1024]⟩
abbrev S65536x1 : Shape := ⟨2, ![65536, 1]⟩
abbrev S1024x1 : Shape := ⟨2, ![1024, 1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1024x512, .f32⟩
  | .hbm, ⟨2, _⟩ => ⟨S1x1024, .f32⟩
  | .hbm, ⟨3, _⟩ => ⟨S1, .f32⟩
  | .hbm, ⟨4, _⟩ => ⟨S65536x512, .f32⟩
  | .hbm, ⟨5, _⟩ => ⟨S_, .f32⟩
  | .hbm, ⟨6, _⟩ => ⟨S65536, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S65536x1024, .f32⟩
  | .hbm, ⟨11, _⟩ => ⟨S65536x1, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S1024x1, .f32⟩
  | .hbm, ⟨28, _⟩ => ⟨S65536x1, .f32⟩
  | .hbm, ⟨29, _⟩ => ⟨S1x1, .f32⟩
  | .hbm, ⟨30, _⟩ => ⟨S65536x1, .f32⟩
  | .hbm, ⟨31, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  reducesTo_S1024x512_S1024_d1 : S1024x512.ReducesTo [1] S1024
  bcast_S65536_S65536x1_0 : S65536.BroadcastsInDim S65536x1 (![0] : Fin 1 → Fin S65536x1.rank)
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S1x1024_S1024x1_1_0 : S1x1024.Transposes [1, 0] S1024x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x512_S1024x512_S65536x1024_1_1_0_0_n_n_wf : DotDims.WF S65536x512 S1024x512 S65536x1024 [1] [1] [0] [0] [] []
  dot_S65536x1024_S1024x1_S65536x1_1_0_0_1_n_n_wf : DotDims.WF S65536x1024 S1024x1 S65536x1 [1] [0] [0] [1] [] []

variable [Facts₀]

def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.Payload.lean ====
/-
  The kernel body's arithmetic, read at one row of its output block, over the extended reals.

  The body computes from the loaded blocks `xb` (1024 samples), `cb` (all 1024 centres), `c2` (the centres' squared
  norms, a row), `wb` (the weight row) and `bb` (the bias): the inner products `xb · cbᵀ` by a matrix product into a zero
  accumulator, the samples' squared norms by a lane sum kept as a column, the radial weights pointwise, and the weights
  against `wbᵀ` by a second matrix product, plus the bias. Changes of float format are the identity on the extended
  reals, and the broadcasts, the transposes and the shape casts only re-index. So row `p` of the result is
    ∑ k, exp (γ' · (((∑ d, xb[p,d]²) − 2 · ∑ d, xb[p,d]·cb[k,d] + c2[0,k]) · 2⁻⁹)) · wb[0,k] + bb[0].
-/
import proofs.«160581_j62105227100161_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Kern

open Cert.KernelIdeal Cert.KernelIdeal.Gen Idealize.ShloMosaic Idealize.ShloMosaic.ValueIdx

/-! ## The two matrix products at an index -/

theorem lhs_cross_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_cross_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_cross_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_cross_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The first product, rows against columns, into the zero accumulator: entry `(p, k)` is the sum over the 512 features
    of the left operand's row `p` times the right operand's column `k`. -/
theorem cross_apply (l : FVec Ideal S1024x512 .bf16) (r : FVec Ideal S512x1024 .bf16) (p k : Fin 1024) :
    matmul (F := Ideal) dot_S1024x512_S512x1024_S1024x1024_1_0_0_1_n_n none l r (constant (F := Ideal) S1024x1024 .f32 0x00000000#32) (ix2 p k)
      = ∑ d : Fin 512, l (ix2 p d) * r (ix2 d k) := by
  simp only [matmul]
  rw [Ideal.matmul_constant_zero_apply, ← Equiv.sum_comp (contrEquiv1 dot_S1024x512_S512x1024_S1024x1024_1_0_0_1_n_n 512 rfl rfl).symm]
  refine Finset.sum_congr rfl fun d _ => ?_
  have hk := contrEquiv1_symm_val dot_S1024x512_S512x1024_S1024x1024_1_0_0_1_n_n 512 rfl rfl d
  have el : dot_S1024x512_S512x1024_S1024x1024_1_0_0_1_n_n.lhsIdx (ix2 p k) ((contrEquiv1 dot_S1024x512_S512x1024_S1024x1024_1_0_0_1_n_n 512 rfl rfl).symm d) = ix2 p d := funext fun a => Fin.ext (by
    match a with
    | ⟨0, _⟩ => exact lhs_cross_0 _ _
    | ⟨1, _⟩ => exact (lhs_cross_1 _ _).trans hk)
  have er : dot_S1024x512_S512x1024_S1024x1024_1_0_0_1_n_n.rhsIdx (ix2 p k) ((contrEquiv1 dot_S1024x512_S512x1024_S1024x1024_1_0_0_1_n_n 512 rfl rfl).symm d) = ix2 d k := funext fun a => Fin.ext (by
    match a with
    | ⟨0, _⟩ => exact (rhs_cross_0 _ _).trans hk
    | ⟨1, _⟩ => exact rhs_cross_1 _ _)
  rw [el, er]

theorem lhs_mix_0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem lhs_mix_1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhs_mix_0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhs_mix_1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- The second product, into the zero accumulator: entry `(p, z)` of the one-column result is the sum over the 1024
    centres of the left operand's row `p` times the right operand's column. -/
theorem mix_apply (l : FVec Ideal S1024x1024 .bf16) (r : FVec Ideal S1024x1 .bf16) (p : Fin 1024) (z : Fin 1) :
    matmul (F := Ideal) dot_S1024x1024_S1024x1_S1024x1_1_0_0_1_n_n none l r (constant (F := Ideal) S1024x1 .f32 0x00000000#32) (ix2 p z)
      = ∑ k : Fin 1024, l (ix2 p k) * r (ix2 k z) := by
  simp only [matmul]
  rw [Ideal.matmul_constant_zero_apply, ← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 p z) ((contrEquiv1 dot_S1024x1024_S1024x1_S1024x1_1_0_0_1_n_n 1024 rfl rfl).symm k) = ix2 p k := funext fun a => Fin.ext (by
    match a with
    | ⟨0, _⟩ => exact lhs_mix_0 _ _
    | ⟨1, _⟩ => exact (lhs_mix_1 _ _).trans hk)
  have er : dot_S1024x1024_S1024x1_S1024x1_1_0_0_1_n_n.rhsIdx (ix2 p z) ((contrEquiv1 dot_S1024x1024_S1024x1_S1024x1_1_0_0_1_n_n 1024 rfl rfl).symm k) = ix2 k z := funext fun a => Fin.ext (by
    match a with
    | ⟨0, _⟩ => exact (rhs_mix_0 _ _).trans hk
    | ⟨1, _⟩ => exact rhs_mix_1 _ _)
  rw [el, er]

/-! ## The lane sum, the column it is kept as, and the broadcasts -/

/-- A row's lane sum: the sum over the 512 features. -/
theorem rowsum_apply (y : FVec Ideal S1024x512 .f32) (h : S1024x512.Reduces [1] S1024) (p : Fin 1024) :
    multiReduction (F := Ideal) .add [1] S1024 y 0x00000000#32 h (.inl rfl) rfl (ix1 p) = ∑ d : Fin 512, y (ix2 p d) := by
  refine (Ideal.multiReduction_add_single y 0x00000000#32 h (.inl rfl) rfl (ix1 p)).trans ?_
  exact Finset.sum_congr rfl fun d _ => congrArg y (funext fun a => Fin.ext (by match a with | ⟨0, _⟩ => rfl | ⟨1, _⟩ => rfl))

/-- A vector of 1024 entries kept as a column `[1024, 1]` reads, at `(p, z)`, its entry `p`. -/
theorem column_apply {α : Type} (v : S1024.Idx → α) (h : S1024.ShapeCasts S1024x1) (p : Fin 1024) (z : Fin 1) :
    shapeCast S1024x1 v h (ix2 p z) = v (ix1 p) :=
  shapeCast_apply v h (ix2 p z) (ix1 p) (by
    rw [Shape.rowMajor_val_one, Shape.rowMajor_val_two]
    show p.val = p.val * 1 + z.val
    have hz : z.val < 1 := z.isLt
    omega)

/-- A column `[1024, 1]` broadcast along the lanes reads, at `(p, k)`, its entry `p`. -/
theorem lanes_apply {α : Type} (v : S1024x1.Idx → α) (h : S1024x1.Broadcasts S1024x1024) (p k : Fin 1024) :
    broadcastTo S1024x1024 v h (ix2 p k) = v (ix2 p (0 : Fin 1)) :=
  broadcastTo_apply v h (ix2 p k) (ix2 p (0 : Fin 1)) (fun a => match a with
    | ⟨0, _⟩ => by show p.val = if (1024 : Nat) = 1 then 0 else p.val; rw [if_neg (by decide)]
    | ⟨1, _⟩ => by show 0 = if (1 : Nat) = 1 then 0 else k.val; rw [if_pos rfl])

/-- A row `[1, 1024]` broadcast down the rows reads, at `(p, k)`, its entry `k`. -/
theorem rows_apply {α : Type} (v : S1x1024.Idx → α) (h : S1x1024.Broadcasts S1024x1024) (p k : Fin 1024) :
    broadcastTo S1024x1024 v h (ix2 p k) = v (ix2 (0 : Fin 1) k) :=
  broadcastTo_1b_ab_apply v h p k

/-- The one bias entry, cast to `[1, 1]` and broadcast down the rows, reads its entry everywhere. -/
theorem bias_apply {α : Type} (v : S1.Idx → α) (h : S1.ShapeCasts S1x1) (h' : S1x1.Broadcasts S1024x1) (p : Fin 1024) (z : Fin 1) :
    broadcastTo S1024x1 (shapeCast S1x1 v h) h' (ix2 p z) = v (ix1 (0 : Fin 1)) := by
  refine (broadcastTo_apply _ h' (ix2 p z) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else z.val; rw [if_pos rfl])).trans ?_
  exact shapeCast_apply v h _ _ (by rw [Shape.rowMajor_val_one, Shape.rowMajor_val_two]; rfl)

/-- The centres' block transposed reads, at `(d, k)`, the block at `(k, d)`. -/
theorem centresT_apply {α : Type} (v : S1024x512.Idx → α) (h : S1024x512.Transposes [1, 0] S512x1024) (d : Fin 512) (k : Fin 1024) :
    transpose S512x1024 [1, 0] v h (ix2 d k) = v (ix2 k d) :=
  transpose_ix2_apply v h d k

/-- The weight row transposed to a column reads, at `(k, z)`, the row at `(z, k)`. -/
theorem weightT_apply {α : Type} (v : S1x1024.Idx → α) (h : S1x1024.Transposes [1, 0] S1024x1) (k : Fin 1024) (z : Fin 1) :
    transpose S1024x1 [1, 0] v h (ix2 k z) = v (ix2 z k) :=
  transpose_ix2_apply v h k z

/-- The first product against the TRANSPOSED centres' block: entry `(p, k)` is the inner product of row `p` of the left
    operand with row `k` of the block. -/
theorem crossT_apply (l r : FVec Ideal S1024x512 .bf16) (h : S1024x512.Transposes [1, 0] S512x1024) (p k : Fin 1024) :
    matmul (F := Ideal) dot_S1024x512_S512x1024_S1024x1024_1_0_0_1_n_n none l (transpose S512x1024 [1, 0] r h) (constant (F := Ideal) S1024x1024 .f32 0x00000000#32) (ix2 p k)
      = ∑ d : Fin 512, l (ix2 p d) * r (ix2 k d) :=
  (cross_apply l _ p k).trans (Finset.sum_congr rfl fun d _ => congrArg (l (ix2 p d) * ·) (centresT_apply r h d k))

/-- The exponential is taken entry by entry. -/
theorem exp_apply {s : Shape} (a : FVec Ideal s .f32) (i : s.Idx) : exp a i = Ideal.exp (a i) := rfl

/-! ## The payload at a row -/

/-- ROW `p` OF THE BODY'S RESULT, from the loaded blocks. -/
theorem pay_apply (xb cb : Vec Ideal S1024x512 .f32) (c2 wb : Vec Ideal S1x1024 .f32) (bb : Vec Ideal S1 .f32)
    (p : Fin 1024) (z : Fin 1) :
    k0_pay1 (F := Ideal) xb cb c2 wb bb (ix2 p z)
      = ∑ k : Fin 1024, Ideal.exp (Ideal.ofBits .f32 0xC0835731#32
          * (((∑ d : Fin 512, xb (ix2 p d) * xb (ix2 p d)) - Ideal.ofBits .f32 0x40000000#32 * (∑ d : Fin 512, xb (ix2 p d) * cb (ix2 k d))
              + c2 (ix2 (0 : Fin 1) k)) * Ideal.ofBits .f32 0x3B000000#32)) * wb (ix2 (0 : Fin 1) k)
        + bb (ix1 (0 : Fin 1)) := by
  obtain rfl : z = 0 := Subsingleton.elim _ _
  unfold k0_pay1
  dsimp only
  rw [addf_apply, mix_apply, bias_apply]
  refine congrArg (· + bb (ix1 (0 : Fin 1))) (Finset.sum_congr rfl fun k _ => ?_)
  rw [truncf_apply, exp_apply, mulf_apply, broadcast_apply, mulf_apply, broadcast_apply, addf_apply, subf_apply,
    lanes_apply, column_apply, rowsum_apply, mulf_apply, broadcast_apply, crossT_apply, rows_apply, shapeCast_self,
    weightT_apply, truncf_apply]
  rfl

end Cert.Rbf.Kern

end
-- ==== Proof.Spec.lean ====
/-
  The function both programs compute, index by index, over the extended reals.

  For a sample row `n` and a centre `k`:
    cross n k   = ∑ d, x[n,d] · centers[k,d]                (the inner product)
    sqX n       = ∑ d, x[n,d]²,   sqC k = ∑ d, centers[k,d]²  (the squared norms)
    weight n k  = exp (γ' · ((sqX n − 2 · cross n k + sqC k) · 2⁻⁹))
  and the result at row `n` is  ∑ k, weight n k · W[0,k] + b[0].
  The three scalar constants stay as the binary words both programs print (`2`, `2⁻⁹`, `γ'`): the same word on
  both sides is never evaluated.
-/
import Idealize.ShloMosaic.PureOps.Ideal
import Idealize.ShloMosaic.Lib.ValueIdx

noncomputable section

namespace Cert.Rbf

open Idealize.ShloMosaic Idealize.ShloMosaic.ValueIdx

/-- The samples, the centres, the linear layer's weight row and its bias, as arrays of extended reals. -/
abbrev XArr := (⟨2, ![65536, 512]⟩ : Shape).Idx → EReal
abbrev CArr := (⟨2, ![1024, 512]⟩ : Shape).Idx → EReal
abbrev WArr := (⟨2, ![1, 1024]⟩ : Shape).Idx → EReal
abbrev BArr := (⟨1, ![1]⟩ : Shape).Idx → EReal

/-- The squared norm of sample `n`. -/
def sqX (x : XArr) (n : Fin 65536) : EReal := ∑ d : Fin 512, x (ix2 n d) * x (ix2 n d)

/-- The squared norm of centre `k`. -/
def sqC (c : CArr) (k : Fin 1024) : EReal := ∑ d : Fin 512, c (ix2 k d) * c (ix2 k d)

/-- The inner product of sample `n` with centre `k`. -/
def cross (x : XArr) (c : CArr) (n : Fin 65536) (k : Fin 1024) : EReal := ∑ d : Fin 512, x (ix2 n d) * c (ix2 k d)

/-- The radial weight of centre `k` at sample `n`: `exp (γ' · (mean squared distance))`, the squared distance expanded
    as `|x|² − 2 x·c + |c|²` and scaled by `2⁻⁹ = 1/512`. -/
def weight (x : XArr) (c : CArr) (n : Fin 65536) (k : Fin 1024) : EReal :=
  Ideal.exp (Ideal.ofBits .f32 0xC0835731#32
    * ((sqX x n - Ideal.ofBits .f32 0x40000000#32 * cross x c n k + sqC c k) * Ideal.ofBits .f32 0x3B000000#32))

/-- The result at sample `n`: the weights against the linear layer's row, plus its bias. -/
def outAt (x : XArr) (c : CArr) (W : WArr) (b : BArr) (n : Fin 65536) : EReal :=
  ∑ k : Fin 1024, weight x c n k * W (ix2 0 k) + b (ix1 0)

/-- The result array `[65536, 1]`. -/
def out (x : XArr) (c : CArr) (W : WArr) (b : BArr) : (⟨2, ![65536, 1]⟩ : Shape).Idx → EReal :=
  fun i => outAt x c W b ⟨(i 0).val, (i 0).isLt⟩

theorem out_ix2 (x : XArr) (c : CArr) (W : WArr) (b : BArr) (n : Fin 65536) (z : Fin 1) :
    out x c W b (ix2 n z) = outAt x c W b n := rfl

end Cert.Rbf

end
-- ==== Proof.Point.lean ====
/-
  One grid point's block of the result is the specification's, row by row.

  Point `T` of the 64 loads rows `T·1024 … T·1024 + 1023` of the samples and, whole, the centres, the centres'
  squared norms, the weight row and the bias. Substituting what each loaded entry is into the body's row formula
  gives the specification's `outAt` at row `T·1024 + p`.
-/
import proofs.«160581_j62105227100161_1_alg».proof.Proof.Payload
import proofs.«160581_j62105227100161_1_alg».proof.Proof.Spec

noncomputable section

namespace Cert.Rbf.Kern

open Cert.KernelIdeal Cert.KernelIdeal.Gen Idealize.ShloMosaic Idealize.ShloMosaic.ValueIdx

/-- ROW `p` OF POINT `T`'S BLOCK is the specification at row `T·1024 + p`, given what the loaded blocks hold. -/
theorem block_row (X : XArr) (C : CArr) (W : WArr) (B : BArr)
    (xb cb : Vec Ideal S1024x512 .f32) (c2 wb : Vec Ideal S1x1024 .f32) (bb : Vec Ideal S1 .f32)
    (T : Nat) (hT : T < 64)
    (hx : ∀ (p : Fin 1024) (d : Fin 512), xb (ix2 p d) = X (ix2 (⟨T * 1024 + p.val, by have := p.isLt; omega⟩ : Fin 65536) d))
    (hc : ∀ (k : Fin 1024) (d : Fin 512), cb (ix2 k d) = C (ix2 k d))
    (hc2 : ∀ k : Fin 1024, c2 (ix2 (0 : Fin 1) k) = sqC C k)
    (hw : ∀ k : Fin 1024, wb (ix2 (0 : Fin 1) k) = W (ix2 (0 : Fin 1) k))
    (hb : bb (ix1 (0 : Fin 1)) = B (ix1 (0 : Fin 1)))
    (p : Fin 1024) (z : Fin 1) :
    k0_pay1 (F := Ideal) xb cb c2 wb bb (ix2 p z) = outAt X C W B ⟨T * 1024 + p.val, by have := p.isLt; omega⟩ := by
  rw [pay_apply]
  unfold outAt weight sqX cross
  simp only [hx, hc, hc2, hw, hb]

end Cert.Rbf.Kern

end
-- ==== Proof.HostC2.lean ====
/-
  What the kernel's third operand holds when the region is entered: the centres' squared norms, as a row.

  Before the region the program squares the centres entry by entry, sums each row from zero, keeps the sums as a
  column and transposes it. Read at `(0, k)` that is `0 + ∑ d, centers[k,d]²`: the specification's `sqC`.
-/
import proofs.«160581_j62105227100161_1_alg».proof.Proof.Gen.KernelIdeal.Frame
import proofs.«160581_j62105227100161_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Kern

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The row of squared norms as a function of the centres' array: square, sum each row from zero, keep as a column,
    transpose. -/
def normRow (C : FVec Ideal S1024x512 .f32) : FVec Ideal S1x1024 .f32 :=
  transpose S1x1024 [1, 0] (broadcastInDim S1024x1 ![0] bcast_S1024_S1024x1_0
    (Host.reduceAdd (F := Ideal) (mulf C C) (constant (F := Ideal) S_ .f32 0x00000000#32) reducesTo_S1024x512_S1024_d1 h_S_))
    transposes_S1024x1_S1x1024_1_0

/-- Entry `(0, k)` of that row is the squared norm of centre `k`. -/
theorem normRow_apply (C : FVec Ideal S1024x512 .f32) (k : Fin 1024) :
    normRow C (ix2 (0 : Fin 1) k) = Cert.Rbf.sqC C k := by
  unfold normRow
  refine (transpose_apply [1, 0] _ transposes_S1024x1_S1x1024_1_0 (ix2 (0 : Fin 1) k) (ix2 k (0 : Fin 1))
    (fun b => match b with | ⟨0, _⟩ => rfl | ⟨1, _⟩ => rfl)).trans ?_
  refine (broadcastInDim_apply ![0] bcast_S1024_S1024x1_0 _ (ix2 k (0 : Fin 1)) (ix1 k) (fun a => match a with
    | ⟨0, _⟩ => by show k.val = if (1024 : Nat) = 1 then 0 else k.val; rw [if_neg (by decide)])).trans ?_
  simp only [Host.reduceAdd, Ideal.hostReduceAdd_def]
  rw [Ideal.hostReduceAdd_single reducesTo_S1024x512_S1024_d1 (by decide)]
  unfold Cert.Rbf.sqC
  show Ideal.ofBits .f32 0x00000000#32 + _ = _
  rw [Ideal.ofBits_zero_f32, zero_add]
  exact Finset.sum_congr rfl fun d _ => congrArg (fun i => C i * C i)
    (funext fun a => Fin.ext (by match a with | ⟨0, _⟩ => rfl | ⟨1, _⟩ => rfl))

/-- The region finds its third operand's array at that row of the launched centres. -/
theorem V_main_v3 (c : Dev nD) :
    (V m c main_v3 : S1x1024.Idx → EReal) = normRow (m ((c : Thread nD τ).loc main_arg1)) := by
  dsimp only [V, hostOps0]; after_results; rfl

end Cert.Rbf.Kern

end
-- ==== Proof.Blocks.lean ====
/-
  From the blocks to the whole result array.

  The output window's block at grid point `t` is rows `t·1024 … t·1024 + 1023` of the one-column result; the samples'
  window moves with it, and the other four windows stay at their arrays' one block. What point `t` writes back is
  therefore block `t` of the specification's `out` of the launched arguments (the third operand's array holding the
  centres' squared norms, computed before the region), the 64 blocks cover every row, and the array ends at `out`.
-/
import proofs.«160581_j62105227100161_1_alg».proof.Proof.Gen.KernelIdeal.Value
import proofs.«160581_j62105227100161_1_alg».proof.Proof.Point
import proofs.«160581_j62105227100161_1_alg».proof.Proof.HostC2

noncomputable section

namespace Cert.Rbf.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 64 points: the samples' window and the output window sit at block `t` of
    their row axis, every other block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The result array the specification assigns to core `c`'s launched arguments. -/
abbrev result (c : Dev nD) : S65536x1.Idx → EReal :=
  Cert.Rbf.out (m ((c : Thread nD τ).loc main_arg0)) (m ((c : Thread nD τ).loc main_arg1))
    (m ((c : Thread nD τ).loc main_arg2)) (m ((c : Thread nD τ).loc main_arg3))

/-- The body's result at point `t`, as a function on the block's own index type, is the specification at the rows
    of block `t`. -/
theorem body_eq (c : Dev nD) (t : Fin cfg0.N) (ht : t.val < 64) (p : Fin 1024) (z : Fin 1) :
    k0_pay1 (F := Ideal) (iblk m c 0 t) (iblk m c 1 t) (iblk m c 2 t) (iblk m c 3 t) (iblk m c 4 t) (ix2 p z)
      = Cert.Rbf.outAt (m ((c : Thread nD τ).loc main_arg0)) (m ((c : Thread nD τ).loc main_arg1))
          (m ((c : Thread nD τ).loc main_arg2)) (m ((c : Thread nD τ).loc main_arg3)) ⟨t.val * 1024 + p.val, by have := p.isLt; omega⟩ := by
  obtain ⟨e00, e01, e10, e11, e20, e21, e30, e31, e40, e50, e51⟩ := idx_facts t
  refine block_row (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (iblk m c 4 t) t.val ht ?_ ?_ ?_ ?_ ?_ p z
  · intro p d
    show V m c main_arg0 (((cfg0.win 0).blk t).view.emb (ix2 p d)) = _
    rw [V_main_arg0]
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 512 + 1 * d.val = d.val; omega
  · intro k d
    show V m c main_arg1 (((cfg0.win 1).blk t).view.emb (ix2 k d)) = _
    rw [V_main_arg1]
    refine congrArg _ (funext fun a => Fin.ext ?_)
    match a with
    | ⟨0, _⟩ => show win0_1.index t (0 : Fin 2) * 1024 + 1 * k.val = k.val; omega
    | ⟨1, _⟩ => show win0_1.index t (1 : Fin 2) * 512 + 1 * d.val = d.val; omega
  · intro k
    show V m c main_v3 (((cfg0.win 2).blk t).view.emb (ix2 (0 : Fin 1) k)) = _
    have e : ((cfg0.win 2).blk t).view.emb (ix2 (0 : Fin 1) k) = ix2 (0 : Fin 1) k := funext fun a => Fin.ext (by
      match a with
      | ⟨0, _⟩ => show win0_2.index t (0 : Fin 2) * 1 + 1 * 0 = 0; omega
      | ⟨1, _⟩ => show win0_2.index t (1 : Fin 2) * 1024 + 1 * k.val = k.val; omega)
    rw [e, V_main_v3, normRow_apply]
  · intro k
    show V m c main_arg2 (((cfg0.win 3).blk t).view.emb (ix2 (0 : Fin 1) k)) = _
    rw [V_main_arg2]
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * k.val = k.val; omega
  · show V m c main_arg3 (((cfg0.win 4).blk t).view.emb (ix1 (0 : Fin 1))) = _
    rw [V_main_arg3]
    refine congrArg _ (funext fun a => Fin.ext ?_)
    match a with
    | ⟨0, _⟩ => show win0_4.index t (0 : Fin 1) * 1 + 1 * 0 = 0; omega

/-- WHAT POINT `t` WRITES BACK is block `t` of the specification's result. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zeros2]
  simp only [View.ld_unit_zero (S := S1024x512) zeros2, View.ld_unit_zero (S := S1x1024) zeros2, View.ld_unit_zero (S := S1) zeros1]
  have ht : t.val < 64 := lt_of_lt_of_eq t.isLt N_0
  obtain ⟨e00, e01, e10, e11, e20, e21, e30, e31, e40, e50, e51⟩ := idx_facts t
  funext j
  show k0_pay1 (F := Ideal) (iblk m c 0 t) (iblk m c 1 t) (iblk m c 2 t) (iblk m c 3 t) (iblk m c 4 t) j
    = result m c (((cfg0.win 5).blk t).view.emb j)
  have hj : (j : S1024x1.Idx) = ix2 (j 0) (j 1) := eq_ix2 j
  rw [hj]
  refine (body_eq m c t ht (j 0) (j 1)).trans ?_
  show _ = Cert.Rbf.outAt _ _ _ _ _
  refine congrArg _ (Fin.ext ?_)
  show t.val * 1024 + (j 0).val = win0_5.index t (0 : Fin 2) * 1024 + 1 * (j 0).val
  omega

/-- An index of the result array is in point `t`'s block iff each coordinate is in the block's range on its axis. -/
theorem mem_blk (t : Fin cfg0.N) (i : S65536x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4).slice (win0_5.rect t)).set ↔ _
  rw [View.set_slice_whole, Rect.mem_set_unit]
  exact Iff.rfl

/-- Every row is in some point's block: row `r` is in block `r / 1024`. -/
theorem cover (i : S65536x1.Idx) : ∃ t : Fin cfg0.N, (cfg0.win 5).flush t = true ∧ i ∈ ((cfg0.win 5).blk t).view.set := by
  have hi0 : (i 0).val < 65536 := (i 0).isLt
  have hi1 : (i 1).val < 1 := (i 1).isLt
  obtain ⟨t, ht⟩ : ∃ t : Fin cfg0.N, t.val = (i 0).val / 1024 :=
    ⟨⟨(i 0).val / 1024, lt_of_lt_of_eq (by omega : (i 0).val / 1024 < 64) N_0.symm⟩, rfl⟩
  obtain ⟨-, -, -, -, -, -, -, -, -, e50, e51⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- THE ARRAY after the run is the specification's result. -/
theorem final (c : Dev nD) : (dats m 0 c).arrAt 5 cfg0.N = result m c :=
  (dats m 0 c).arrAt_eq_of_cover 5 (result m c) (fun t _ => flushed_eq m c t) cover

/-- The kernel's run, read: the result array at the specification's `out` of the launched arguments, the arguments
    unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Rbf.Kern

end
-- ==== Proof.RefIsSpec.lean ====
/-
  The reference's result, read one operation at a time at an index, is the specification's `out`.

  Reading the reference's last stage at an index `i` unfolds, operation by operation, to
  `∑ k, exp (γ' · (((0 + ∑ d, x[i₀,d]²) − 2 · ∑ d, x[i₀,d]·c[k,d] + (0 + ∑ d, c[k,d]²)) · 2⁻⁹)) · W[0,k] + b[0]`:
  the two `dot_general`s and the two row sums are plain finite sums over the extended reals, the broadcasts and the
  transpose only re-index, and the host's exponential is the extended reals' `exp`. The zero the row sums start from
  is the extended real `0`, which drops.
-/
import proofs.«160581_j62105227100161_1_alg».proof.Proof.Gen.ReferenceIdeal.Read
import proofs.«160581_j62105227100161_1_alg».proof.Proof.Spec

noncomputable section

namespace Cert.Rbf.Ref

open Cert.ReferenceIdeal Cert.ReferenceIdeal.Gen Cert.ReferenceIdeal.Read
open Idealize.ShloMosaic Idealize.ShloMosaic.ValueIdx

/-- The index of `x` the reference's first product reads at result row `i`, centre `k`, feature `d`. -/
theorem lidx_cross (i : S65536x1.Idx) (k : Fin 1024) (d : Fin 512) :
    lidx_main_v4 (lidx_main_v19 i k) d = ix2 (⟨(i 0).val, (i 0).isLt⟩ : Fin 65536) d :=
  funext fun a => Fin.ext (by match a with | ⟨0, _⟩ => rfl | ⟨1, _⟩ => rfl)

/-- The index of `centers` it reads there. -/
theorem ridx_cross (i : S65536x1.Idx) (k : Fin 1024) (d : Fin 512) :
    ridx_main_v4 (lidx_main_v19 i k) d = ix2 k d :=
  funext fun a => Fin.ext (by match a with | ⟨0, _⟩ => rfl | ⟨1, _⟩ => rfl)

/-- The index of `x` the sample's squared norm reads. -/
theorem idx_sqX (i : S65536x1.Idx) (k : Fin 1024) (d : Fin 512) :
    idx_main_v1 (idx_main_v5 (idx_main_v8 (lidx_main_v19 i k))) d = ix2 (⟨(i 0).val, (i 0).isLt⟩ : Fin 65536) d :=
  funext fun a => Fin.ext (by match a with | ⟨0, _⟩ => rfl | ⟨1, _⟩ => rfl)

/-- The index of `centers` the centre's squared norm reads. -/
theorem idx_sqC (i : S65536x1.Idx) (k : Fin 1024) (d : Fin 512) :
    idx_main_v3 (idx_main_v10 (idx_main_v11 (lidx_main_v19 i k))) d = ix2 k d :=
  funext fun a => Fin.ext (by match a with | ⟨0, _⟩ => rfl | ⟨1, _⟩ => rfl)

/-- The index of `W` the second product reads: row `0`, column `k` (the result has one column). -/
theorem idx_W (i : S65536x1.Idx) (k : Fin 1024) :
    idx_main_v18 (ridx_main_v19 i k) = ix2 (0 : Fin 1) k :=
  funext fun a => Fin.ext (by
    match a with
    | ⟨0, _⟩ => show (i 1).val = 0; have h : (i 1).val < 1 := (i 1).isLt; omega
    | ⟨1, _⟩ => rfl)

/-- The index of `b` the bias reads: its one entry. -/
theorem idx_b (i : S65536x1.Idx) : idx_main_v20 (idx_main_v21 i) = ix1 (0 : Fin 1) :=
  funext fun a => Fin.ext (by match a with | ⟨0, _⟩ => rfl)

/-- THE REFERENCE IS THE SPECIFICATION: its last stage, as a function of the four arguments, is `out`. -/
theorem val_eq_out (x : XArr) (c : CArr) (W : WArr) (b : BArr) :
    val_main_v22 (F := Ideal) x c W b = out x c W b := by
  funext i
  rw [val_main_v22_apply, val_main_v19_apply, val_main_v21_apply, val_main_v20_apply, idx_b]
  unfold out outAt
  refine congrArg (· + b (ix1 0)) (Finset.sum_congr rfl fun k _ => ?_)
  rw [val_main_v17_apply, val_main_v16_apply, val_main_v15_apply, val_main_cst_3_apply, val_main_v14_apply,
    val_main_v13_apply, val_main_cst_2_apply, val_main_v12_apply, val_main_v9_apply, val_main_v8_apply, val_main_v5_apply,
    val_main_v1_apply, val_main_v7_apply, val_main_v6_apply, val_main_cst_1_apply, val_main_v4_apply,
    val_main_v11_apply, val_main_v10_apply, val_main_v3_apply, val_main_v18_apply, idx_W,
    val_main_cst_apply, val_main_cst_0_apply]
  simp only [val_main_v0_apply, val_main_v2_apply, lidx_cross, ridx_cross, idx_sqX, idx_sqC]
  unfold weight sqX sqC cross
  simp only [Ideal.ofBits_def, Ideal.mulf_def, Ideal.addf_def, Ideal.subf_def, Ideal.hostUnary_exp_def,
    Ideal.ofBits_zero_f32, zero_add]

end Cert.Rbf.Ref

end
-- ==== Proof.lean ====
/-
  Kernel and reference compute one function of `x`, `centers`, `W`, `b` over the extended reals:
    out[n] = ∑ k, exp (γ' · ((|x_n|² − 2 x_n·c_k + |c_k|²) · 2⁻⁹)) · W[0,k] + b[0],
  with `γ'`, `2` and `2⁻⁹` the same binary words in both programs (Proof/Spec.lean).

  The reference computes it with two `dot_general`s and two row sums on whole arrays (Proof/RefIsSpec.lean). The kernel
  computes the centres' squared norms before its region (Proof/HostC2.lean) and then, at each of 64 grid points, 1024 rows
  of the result from 1024 rows of `x`: two matrix products into zero accumulators and a lane sum (Proof/Payload.lean,
  Proof/Point.lean); the 64 blocks tile the result (Proof/Blocks.lean). The two sides agree term by term — sums, products
  and the exponential in the same grouping — so no law of the extended reals beyond `0 + s = s` is used, and the
  finiteness of the inputs is not needed. The idealization rewrote nothing, so `preserves` is trivial.
-/
import proofs.«160581_j62105227100161_1_alg».proof.Defs
import proofs.«160581_j62105227100161_1_alg».proof.Proof.Gen.Kernel
import proofs.«160581_j62105227100161_1_alg».proof.Proof.Gen.Kernel.Skeleton
import proofs.«160581_j62105227100161_1_alg».proof.Proof.Gen.Kernel.Launch
import proofs.«160581_j62105227100161_1_alg».proof.Proof.Gen.Kernel.Points
import proofs.«160581_j62105227100161_1_alg».proof.Proof.Gen.Kernel.Frame
import proofs.«160581_j62105227100161_1_alg».proof.Proof.Gen.KernelIdeal
import proofs.«160581_j62105227100161_1_alg».proof.Proof.Gen.KernelIdeal.Skeleton
import proofs.«160581_j62105227100161_1_alg».proof.Proof.Gen.KernelIdeal.Launch
import proofs.«160581_j62105227100161_1_alg».proof.Proof.Gen.KernelIdeal.Points
import proofs.«160581_j62105227100161_1_alg».proof.Proof.Gen.KernelIdeal.Frame
import proofs.«160581_j62105227100161_1_alg».proof.Proof.Gen.ReferenceIdeal
import proofs.«160581_j62105227100161_1_alg».proof.Proof.Gen.KernelIdeal.Value
import proofs.«160581_j62105227100161_1_alg».proof.Proof.Gen.ReferenceIdeal.Run
import proofs.«160581_j62105227100161_1_alg».proof.Proof.Gen.ReferenceIdeal.Read
import proofs.«160581_j62105227100161_1_alg».proof.Proof.Gen.Pre_finite_inputs
import proofs.«160581_j62105227100161_1_alg».proof.Proof.Blocks
import proofs.«160581_j62105227100161_1_alg».proof.Proof.RefIsSpec
import Idealize.ShloMosaic.Adequacy
import Idealize.ShloMosaic.Init

noncomputable section

namespace Cert.Proof

open Idealize.ShloMosaic Idealize.SL.Sem

/-- The word-level kernel runs, faults nowhere and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the idealized kernel's result array and the reference's both
    end at the specification's `out` of those arguments. -/
theorem algebraic : Cert.algebraic_KernelIdeal_ReferenceIdeal := by
  intro m ρ m' ρ' _ hagree
  refine ⟨fun c => Cert.Rbf.Kern.result m c, Cert.Rbf.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.val_eq_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
